-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S5000x128 : Shape := ⟨2, ![5000, 128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩
abbrev S64x64 : Shape := ⟨2, ![64, 64]⟩
abbrev S50000x1 : Shape := ⟨2, ![50000, 1]⟩

abbrev nBuf : Space → Nat
  | .hbm => 129
  | .vmem => 20
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x64, .f32⟩
  | 6 => ⟨S64, .f32⟩
  | 7 => ⟨S50000x128, .f32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S_, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000x128, .f32⟩
  | 57 => ⟨S650000x1, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S50000x128, .f32⟩
  | 66 => ⟨S50000x64, .f32⟩
  | 67 => ⟨S50000, .i32⟩
  | 68 => ⟨S1x600000, .i32⟩
  | 69 => ⟨S600000, .i32⟩
  | 70 => ⟨S650000, .i32⟩
  | 71 => ⟨S1x600000, .i32⟩
  | 72 => ⟨S600000, .i32⟩
  | 73 => ⟨S650000, .i32⟩
  | 74 => ⟨S_, .f32⟩
  | 75 => ⟨S650000, .f32⟩
  | 76 => ⟨S_, .f32⟩
  | 77 => ⟨S50000, .f32⟩
  | 78 => ⟨S650000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S650000, .i32⟩
  | 90 => ⟨S650000, .i1⟩
  | 91 => ⟨S_, .i32⟩
  | 92 => ⟨S650000, .i32⟩
  | 93 => ⟨S650000, .i32⟩
  | 94 => ⟨S650000, .i32⟩
  | 95 => ⟨S650000x1, .i32⟩
  | 96 => ⟨S650000, .f32⟩
  | 97 => ⟨S_, .i32⟩
  | 98 => ⟨S650000, .i32⟩
  | 99 => ⟨S650000, .i1⟩
  | 100 => ⟨S_, .i32⟩
  | 101 => ⟨S650000, .i32⟩
  | 102 => ⟨S650000, .i32⟩
  | 103 => ⟨S650000, .i32⟩
  | 104 => ⟨S650000x1, .i32⟩
  | 105 => ⟨S650000, .f32⟩
  | 106 => ⟨S650000, .f32⟩
  | 107 => ⟨S_, .i32⟩
  | 108 => ⟨S650000, .i32⟩
  | 109 => ⟨S650000, .i1⟩
  | 110 => ⟨S_, .i32⟩
  | 111 => ⟨S650000, .i32⟩
  | 112 => ⟨S650000, .i32⟩
  | 113 => ⟨S650000, .i32⟩
  | 114 => ⟨S650000x1, .i32⟩
  | 115 => ⟨S650000x64, .f32⟩
  | 116 => ⟨S650000x1, .f32⟩
  | 117 => ⟨S650000x64, .f32⟩
  | 118 => ⟨S650000x64, .f32⟩
  | 119 => ⟨S_, .f32⟩
  | 120 => ⟨S50000x64, .f32⟩
  | 121 => ⟨S650000x1, .i32⟩
  | 122 => ⟨S50000x64, .f32⟩
  | 123 => ⟨S1x64, .f32⟩
  | 124 => ⟨S50000x64, .f32⟩
  | 125 => ⟨S_, .f32⟩
  | 126 => ⟨S64x64, .f32⟩
  | 127 => ⟨S50000x1, .i32⟩
  | _ => ⟨S50000x128, .f32⟩

abbrev hbmTy0_1 (i : Nat) : BufTy := match i % 128 with
  | 0 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_20 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S50000_S50000x1_0 : S50000.BroadcastsInDim S50000x1 (![0] : Fin 1 → Fin S50000x1.rank)
  dot_S5000x128_S128x128_S5000x128_1_0_0_1_n_n_wf : DotDims.WF S5000x128 S128x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  scatter_S64x64_S50000x1_S50000x64_1_0_0_1_wf : ScatterDims.WF S64x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S64x64 : Shape := ⟨2, ![64, 64]⟩
abbrev S50000x1 : Shape := ⟨2, ![50000, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x64, .f32⟩
  | 6 => ⟨S64, .f32⟩
  | 7 => ⟨S50000x128, .f32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S_, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S_, .i32⟩
  | 49 => ⟨S650000, .i32⟩
  | 50 => ⟨S650000, .i1⟩
  | 51 => ⟨S_, .i32⟩
  | 52 => ⟨S650000, .i32⟩
  | 53 => ⟨S650000, .i32⟩
  | 54 => ⟨S650000, .i32⟩
  | 55 => ⟨S650000x1, .i32⟩
  | 56 => ⟨S650000x128, .f32⟩
  | 57 => ⟨S650000x1, .f32⟩
  | 58 => ⟨S650000x128, .f32⟩
  | 59 => ⟨S650000x128, .f32⟩
  | 60 => ⟨S_, .f32⟩
  | 61 => ⟨S50000x128, .f32⟩
  | 62 => ⟨S650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x64, .f32⟩
  | 71 => ⟨S50000, .i32⟩
  | 72 => ⟨S1x600000, .i32⟩
  | 73 => ⟨S600000, .i32⟩
  | 74 => ⟨S650000, .i32⟩
  | 75 => ⟨S1x600000, .i32⟩
  | 76 => ⟨S600000, .i32⟩
  | 77 => ⟨S650000, .i32⟩
  | 78 => ⟨S_, .f32⟩
  | 79 => ⟨S650000, .f32⟩
  | 80 => ⟨S_, .f32⟩
  | 81 => ⟨S50000, .f32⟩
  | 82 => ⟨S650000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000, .f32⟩
  | 110 => ⟨S650000, .f32⟩
  | 111 => ⟨S_, .i32⟩
  | 112 => ⟨S650000, .i32⟩
  | 113 => ⟨S650000, .i1⟩
  | 114 => ⟨S_, .i32⟩
  | 115 => ⟨S650000, .i32⟩
  | 116 => ⟨S650000, .i32⟩
  | 117 => ⟨S650000, .i32⟩
  | 118 => ⟨S650000x1, .i32⟩
  | 119 => ⟨S650000x64, .f32⟩
  | 120 => ⟨S650000x1, .f32⟩
  | 121 => ⟨S650000x64, .f32⟩
  | 122 => ⟨S650000x64, .f32⟩
  | 123 => ⟨S_, .f32⟩
  | 124 => ⟨S50000x64, .f32⟩
  | 125 => ⟨S650000x1, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S64x64, .f32⟩
  | 4 => ⟨S50000x1, .i32⟩
  | 5 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  scatter_S64x64_S50000x1_S50000x64_1_0_0_1_wf : ScatterDims.WF S64x64 S50000x1 S50000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf

class Facts : Prop extends Facts₀ where

variable [Facts]
-- ==== Proof.Matmul.lean ====
/- The two matrix-product regions read as whole arrays: every grid point multiplies its block of 5000 rows of the
   left operand by the whole right operand, the ten blocks tile the 50000 rows, so the result array is the
   product of the two arrays, entry by entry a sum over the 128 contracted positions. -/
import proofs.«156816_j44238163149209_1_alg».proof.Proof.Gen.KernelIdeal.Frame
import proofs.«156816_j44238163149209_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Idealize.ShloMosaic.ValueIdx

/-- The origin of a rank-2 array, as the constant function. -/
theorem origin2 : (![0, 0] : Fin 2 → Nat) = fun _ => 0 := funext fun a => by fin_cases a <;> rfl

/-! ## Region 0: one block of 5000 rows times the whole 128 × 128 operand, entry by entry -/

/-- The left operand's row coordinate at output entry `i` is the entry's row. -/
theorem rows128_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted position. -/
theorem rows128_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted position. -/
theorem rows128_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the entry's column. -/
theorem rows128_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block's product: the sum over the 128 contracted positions k of x(p, k) · w(k, q); the
    change of float format is the identity and the accumulator is zero. -/
theorem rows128_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact rows128_lhs_0 _ _
    | ⟨1, _⟩ => exact (rows128_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rows128_rhs_0 _ _).trans hk
    | ⟨1, _⟩ => exact rows128_rhs_1 _ _)
  rw [el, er]
  rfl

/-- The product of the two whole arrays at an entry: the same sum, over the arrays' own coordinates. -/
theorem whole128_apply (a : (⟨Cert.ReferenceIdeal.S50000x128, .f32⟩ : BufTy).Contents (Elt Ideal)) (b : (⟨Cert.ReferenceIdeal.S128x128, .f32⟩ : BufTy).Contents (Elt Ideal)) (i : Cert.ReferenceIdeal.S50000x128.Idx) :
    Host.dotGeneral (F := Ideal) (φ₁ := .f32) (φ₂ := .f32) Cert.ReferenceIdeal.dot_S50000x128_S128x128_S50000x128_1_0_0_1_n_n none a b i
      = ∑ k : Fin 128, a (Cert.ReferenceIdeal.ReadP.lidx_main_v0 i k) * b (Cert.ReferenceIdeal.ReadP.ridx_main_v0 i k) :=
  Cert.ReferenceIdeal.ReadP.val_main_v0_apply a b i

/-- An entry of a block's product is the whole product's entry `i`, once the block's row p is the left array's row
    of `i` and the small operand's column q is the right array's column of `i`. -/
theorem rows128_entry (x : Vec Ideal S5000x128 .f32) (w : Vec Ideal S128x128 .f32)
    (a : (⟨Cert.ReferenceIdeal.S50000x128, .f32⟩ : BufTy).Contents (Elt Ideal)) (b : (⟨Cert.ReferenceIdeal.S128x128, .f32⟩ : BufTy).Contents (Elt Ideal))
    (i : Cert.ReferenceIdeal.S50000x128.Idx) (p : Fin 5000) (q : Fin 128)
    (hx : ∀ k : Fin 128, x (ix2 p k) = a (Cert.ReferenceIdeal.ReadP.lidx_main_v0 i k))
    (hw : ∀ k : Fin 128, w (ix2 k q) = b (Cert.ReferenceIdeal.ReadP.ridx_main_v0 i k)) :
    k0_pay1 (F := Ideal) x w (ix2 p q) = Host.dotGeneral (F := Ideal) (φ₁ := .f32) (φ₂ := .f32) Cert.ReferenceIdeal.dot_S50000x128_S128x128_S50000x128_1_0_0_1_n_n none a b i := by
  rw [rows128_apply, whole128_apply]
  exact Finset.sum_congr rfl fun k _ => by rw [hx k, hw k]

/-- At grid point t the left operand's and the result's blocks are block t of rows, and the right operand's block
    is the whole operand. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two whole arrays. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x128_S128x128_S50000x128_1_0_0_1_n_n none (V c main_arg0) (V c main_arg3)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := blocks0 t
  funext j
  obtain ⟨p, q, rfl⟩ : ∃ (p : Fin 5000) (q : Fin 128), j = ix2 p q := ⟨j 0, j 1, eq_ix2 j⟩
  rw [View.read_apply]
  refine rows128_entry _ _ (V c main_arg0) (V c main_arg3) _ p q (fun k => ?_) (fun k => ?_)
  · unfold iblk0
    rw [View.read_apply]
    show V c main_arg0 _ = V c main_arg0 _
    congr 1
    funext a
    apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · unfold iblk0
    rw [View.read_apply]
    show V c main_arg3 _ = V c main_arg3 _
    congr 1
    funext a
    apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An entry of the result array is in grid point t's block iff each coordinate is in the block's range. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten blocks tile the 50000 rows: row r is in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨e0, e1, e2, e3, e4, e5⟩ := blocks0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0's result array is the matrix product of its two operand arrays. -/
theorem mm0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg3) :=
  (dat0 (F := Ideal) V c).arrAt_eq_of_cover 2 _ (fun t _ => flushed0_eq V c t) (cover0)

/-! ## Region 2: one block of 5000 rows times the whole 128 × 64 operand, entry by entry -/

/-- The left operand's row coordinate at output entry `i` is the entry's row. -/
theorem rows64_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted position. -/
theorem rows64_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contracted position. -/
theorem rows64_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the entry's column. -/
theorem rows64_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a block's product: the sum over the 128 contracted positions k of x(p, k) · w(k, q); the
    reshape of the block to its own shape and the change of float format are the identity, the accumulator is zero. -/
theorem rows64_apply (x : Vec Ideal S5000x128 .f32) (w : Vec Ideal S128x64 .f32) (p : Fin 5000) (q : Fin 64) :
    k2_pay1 (F := Ideal) x w (ix2 p q) = ∑ k : Fin 128, x (ix2 p k) * w (ix2 k q) := by
  unfold k2_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact rows64_lhs_0 _ _
    | ⟨1, _⟩ => exact (rows64_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rows64_rhs_0 _ _).trans hk
    | ⟨1, _⟩ => exact rows64_rhs_1 _ _)
  rw [el, er]
  rfl

/-- The product of the two whole arrays at an entry: the same sum, over the arrays' own coordinates. -/
theorem whole64_apply (a : (⟨Cert.ReferenceIdeal.S50000x128, .f32⟩ : BufTy).Contents (Elt Ideal)) (b : (⟨Cert.ReferenceIdeal.S128x64, .f32⟩ : BufTy).Contents (Elt Ideal)) (i : Cert.ReferenceIdeal.S50000x64.Idx) :
    Host.dotGeneral (F := Ideal) (φ₁ := .f32) (φ₂ := .f32) Cert.ReferenceIdeal.dot_S50000x128_S128x64_S50000x64_1_0_0_1_n_n none a b i
      = ∑ k : Fin 128, a (Cert.ReferenceIdeal.ReadP.lidx_main_v48 i k) * b (Cert.ReferenceIdeal.ReadP.ridx_main_v48 i k) := by
  simp only [Host.dotGeneral]
  rw [Ideal.dotGeneral_apply, ← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((contrEquiv1 Cert.ReferenceIdeal.dot_S50000x128_S128x64_S50000x64_1_0_0_1_n_n 128 rfl rfl).symm k) = Cert.ReferenceIdeal.ReadP.lidx_main_v48 i k := funext fun a => Fin.ext (by
    match a with
    | ⟨0, _⟩ => exact Cert.ReferenceIdeal.ReadP.lhs_main_v48_0 _ _
    | ⟨1, _⟩ => exact (Cert.ReferenceIdeal.ReadP.lhs_main_v48_1 _ _).trans hk)
  have er : Cert.ReferenceIdeal.dot_S50000x128_S128x64_S50000x64_1_0_0_1_n_n.rhsIdx i ((contrEquiv1 Cert.ReferenceIdeal.dot_S50000x128_S128x64_S50000x64_1_0_0_1_n_n 128 rfl rfl).symm k) = Cert.ReferenceIdeal.ReadP.ridx_main_v48 i k := funext fun a => Fin.ext (by
    match a with
    | ⟨0, _⟩ => exact (Cert.ReferenceIdeal.ReadP.rhs_main_v48_0 _ _).trans hk
    | ⟨1, _⟩ => exact Cert.ReferenceIdeal.ReadP.rhs_main_v48_1 _ _)
  rw [el, er]

/-- An entry of a block's product is the whole product's entry `i`, once the block's row p is the left array's row
    of `i` and the small operand's column q is the right array's column of `i`. -/
theorem rows64_entry (x : Vec Ideal S5000x128 .f32) (w : Vec Ideal S128x64 .f32)
    (a : (⟨Cert.ReferenceIdeal.S50000x128, .f32⟩ : BufTy).Contents (Elt Ideal)) (b : (⟨Cert.ReferenceIdeal.S128x64, .f32⟩ : BufTy).Contents (Elt Ideal))
    (i : Cert.ReferenceIdeal.S50000x64.Idx) (p : Fin 5000) (q : Fin 64)
    (hx : ∀ k : Fin 128, x (ix2 p k) = a (Cert.ReferenceIdeal.ReadP.lidx_main_v48 i k))
    (hw : ∀ k : Fin 128, w (ix2 k q) = b (Cert.ReferenceIdeal.ReadP.ridx_main_v48 i k)) :
    k2_pay1 (F := Ideal) x w (ix2 p q) = Host.dotGeneral (F := Ideal) (φ₁ := .f32) (φ₂ := .f32) Cert.ReferenceIdeal.dot_S50000x128_S128x64_S50000x64_1_0_0_1_n_n none a b i := by
  rw [rows64_apply, whole64_apply]
  exact Finset.sum_congr rfl fun k _ => by rw [hx k, hw k]

/-- At grid point t the left operand's and the result's blocks are block t of rows, and the right operand's block
    is the whole operand. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the two whole arrays. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x128_S128x64_S50000x64_1_0_0_1_n_n none (V c main_v45) (V c main_arg5)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x64) origin2]
  obtain ⟨e0, e1, e2, e3, e4, e5⟩ := blocks2 t
  funext j
  obtain ⟨p, q, rfl⟩ : ∃ (p : Fin 5000) (q : Fin 64), j = ix2 p q := ⟨j 0, j 1, eq_ix2 j⟩
  rw [View.read_apply]
  refine rows64_entry _ _ (V c main_v45) (V c main_arg5) _ p q (fun k => ?_) (fun k => ?_)
  · unfold iblk2
    rw [View.read_apply]
    show V c main_v45 _ = V c main_v45 _
    congr 1
    funext a
    apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  · unfold iblk2
    rw [View.read_apply]
    show V c main_arg5 _ = V c main_arg5 _
    congr 1
    funext a
    apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega

/-- An entry of the result array is in grid point t's block iff each coordinate is in the block's range. -/
theorem mem_block2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten blocks tile the 50000 rows: row r is in block r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by omega⟩, rfl⟩
  obtain ⟨e0, e1, e2, e3, e4, e5⟩ := blocks2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2's result array is the matrix product of its two operand arrays. -/
theorem mm2 (c : Dev nD) :
    (dat2 (F := Ideal) V c).arrAt 2 cfg2.N
      = Host.dotGeneral (F := Ideal) (φ₁ := .f32) (φ₂ := .f32) Cert.ReferenceIdeal.dot_S50000x128_S128x64_S50000x64_1_0_0_1_n_n none (V c main_v45) (V c main_arg5) :=
  (dat2 (F := Ideal) V c).arrAt_eq_of_cover 2 _ (fun t _ => flushed2_eq V c t) (cover2)

end Cert.KernelIdeal.RegionValue

end
-- ==== Proof.Bias.lean ====
/- The two bias regions read as whole arrays: every grid point adds the one bias row to each of its 5000 rows
   (and, in the first, takes the maximum with zero), the ten blocks tile the 50000 rows, so the result array is
   the operand array plus the bias row broadcast over the rows. -/
import proofs.«156816_j44238163149209_1_alg».proof.Proof.Gen.KernelIdeal.Frame
import proofs.«156816_j44238163149209_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The first bias region: 128 columns, then the maximum with zero -/

open Idealize.ShloMosaic.ValueIdx in
/-- The reference's term at an index: the operand's entry plus the bias entry of its column, then the maximum with zero. -/
theorem relu_bias_apply (x : Vec Ideal S50000x128 .f32) (b : Vec Ideal Cert.ReferenceIdeal.S128 .f32) (i : S50000x128.Idx) :
    (maximumf (F := Ideal)
          (addf (F := Ideal) x
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b)))
          (broadcastInDim Cert.ReferenceIdeal.S50000x128 ![] Cert.ReferenceIdeal.Gen.bcast_S_S50000x128
            (constant (F := Ideal) Cert.ReferenceIdeal.S_ .f32 0x00000000#32))) i
      = max (x i + b (ix1 ⟨(i 1).val, (i 1).isLt⟩)) (Ideal.ofBits .f32 0x00000000#32) := by
  rw [maximumf_apply, addf_apply]
  rw [broadcastInDim_apply _ Cert.ReferenceIdeal.Gen.bcast_S_S50000x128 _ i (fun a => a.elim0) (fun a => a.elim0)]
  rw [broadcastInDim_apply _ Cert.ReferenceIdeal.Gen.bcast_S1x128_S50000x128_0_1 _ i (ix2 ⟨0, Nat.one_pos⟩ ⟨(i 1).val, (i 1).isLt⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ Cert.ReferenceIdeal.Gen.bcast_S128_S1x128_1 b _ (ix1 ⟨(i 1).val, (i 1).isLt⟩) (fun a => match a with
    | ⟨0, _⟩ => by show (i 1).val = if (128 : Nat) = 1 then 0 else (i 1).val; rw [if_neg (by decide)])]
  rfl

open Idealize.ShloMosaic.ValueIdx in
/-- The body's block at (p, q): the operand block's entry plus the bias row's entry of column q, then the maximum with zero. -/
theorem relu_bias_block_apply (x : Vec Ideal S5000x128 .f32) (brow : Vec Ideal S1x128 .f32) (p : Fin 5000) (q : Fin 128) :
    k1_pay1 (F := Ideal) x brow (ix2 p q) = max (x (ix2 p q) + brow (ix2 ⟨0, Nat.one_pos⟩ q)) (Ideal.ofBits .f32 0x00000000#32) := by
  unfold k1_pay1
  rw [maximumf_apply, addf_apply, shapeCast_self, shapeCast_self, broadcast_apply]
  rw [broadcastTo_apply brow broadcasts_S1x128_S5000x128 (ix2 p q) (ix2 ⟨0, Nat.one_pos⟩ q) (fun a => match a with
    | ⟨0, _⟩ => by show 0 = if (1 : Nat) = 1 then 0 else _; rw [if_pos rfl]
    | ⟨1, _⟩ => by show q.val = if (128 : Nat) = 1 then 0 else _; rw [if_neg (by decide)]; rfl)]
  rfl

open Idealize.ShloMosaic.ValueIdx in
/-- A block read off the operand array A through e0 and a bias row read off the row array R through e1 give, under the body,
    the block of the reference's term that e2 names, when e0 and e2 name the same entries and e1 keeps e2's column. -/
theorem relu_bias_block_read (A : Vec Ideal S50000x128 .f32) (R : Vec Ideal S1x128 .f32) (b : Vec Ideal Cert.ReferenceIdeal.S128 .f32)
    (hb : ∀ j : S1x128.Idx, R j = b (ix1 ⟨(j 1).val, (j 1).isLt⟩))
    (x : Vec Ideal S5000x128 .f32) (brow : Vec Ideal S1x128 .f32)
    (e0 e2 : S5000x128.Idx → S50000x128.Idx) (e1 : S1x128.Idx → S1x128.Idx)
    (hx : ∀ k, x k = A (e0 k)) (hr : ∀ k, brow k = R (e1 k))
    (h02 : ∀ k, e0 k = e2 k)
    (h1 : ∀ (p : Fin 5000) (q : Fin 128), ((e1 (ix2 ⟨0, Nat.one_pos⟩ q)) 1).val = ((e2 (ix2 p q)) 1).val) :
    k1_pay1 (F := Ideal) x brow = fun k => (maximumf (F := Ideal)
          (addf (F := Ideal) A
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b)))
          (broadcastInDim Cert.ReferenceIdeal.S50000x128 ![] Cert.ReferenceIdeal.Gen.bcast_S_S50000x128
            (constant (F := Ideal) Cert.ReferenceIdeal.S_ .f32 0x00000000#32))) (e2 k) := by
  funext j
  obtain ⟨p, q, rfl⟩ : ∃ (p : Fin 5000) (q : Fin 128), j = ix2 p q := ⟨j 0, j 1, eq_ix2 j⟩
  rw [relu_bias_block_apply, relu_bias_apply, hx, hr, hb, h02]
  have e : (⟨((e1 (ix2 ⟨0, Nat.one_pos⟩ q)) 1).val, ((e1 (ix2 ⟨0, Nat.one_pos⟩ q)) 1).isLt⟩ : Fin 128) = ⟨((e2 (ix2 p q)) 1).val, ((e2 (ix2 p q)) 1).isLt⟩ := Fin.ext (h1 p q)
  rw [e]

theorem bias_zero_offsets : (![0, 0] : Fin 2 → Nat) = fun _ => 0 := funext fun a => by fin_cases a <;> rfl

/-- The windows' block indices over the grid: the operand's and the result's block at point t is row block t, column block 0;
    the bias row's block is always block (0, 0). -/
theorem rows_at1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

open Idealize.ShloMosaic.ValueIdx in
/-- What point t writes back is rows 5000·t … 5000·t + 4999 of the operand plus the bias row, then the maximum with zero. -/
theorem relu_bias_flushed (c : Dev nD) (b : Vec Ideal Cert.ReferenceIdeal.S128 .f32)
    (hb : ∀ j : S1x128.Idx, V c main_v44 j = b (ix1 ⟨(j 1).val, (j 1).isLt⟩)) (t : Fin cfg1.N) :
    (dat1 (F := Ideal) V c).flushed 2 t = ((cfg1.win 2).blk t).view.read (Elt Ideal)
      (maximumf (F := Ideal)
          (addf (F := Ideal) (V c main_v43)
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b)))
          (broadcastInDim Cert.ReferenceIdeal.S50000x128 ![] Cert.ReferenceIdeal.Gen.bcast_S_S50000x128
            (constant (F := Ideal) Cert.ReferenceIdeal.S_ .f32 0x00000000#32))) := by
  show (cfg1.win 2).cut (grid1.coords t) ((dat1 (F := Ideal) V c).after 2 t) = _
  rw [after1_2]
  unfold out1_2
  rw [View.canon_unit_zero bias_zero_offsets]
  simp only [View.ld_unit_zero (S := S5000x128) bias_zero_offsets, View.ld_unit_zero (S := S1x128) bias_zero_offsets]
  obtain ⟨e0, e1, e2, e3, e4, e5⟩ := rows_at1 t
  refine relu_bias_block_read (V c main_v43) (V c main_v44) b hb (iblk1 V c 0 t) (iblk1 V c 1 t)
    ((cfg1.win 0).blk t).view.emb ((cfg1.win 2).blk t).view.emb ((cfg1.win 1).blk t).view.emb
    (fun _ => rfl) (fun _ => rfl) (fun k => ?_) (fun p q => ?_)
  · funext a; apply Fin.ext
    match a with
    | ⟨0, _⟩ => show win1_0.index t (0 : Fin 2) * 5000 + 1 * (k 0).val = win1_2.index t (0 : Fin 2) * 5000 + 1 * (k 0).val; omega
    | ⟨1, _⟩ => show win1_0.index t (1 : Fin 2) * 128 + 1 * (k 1).val = win1_2.index t (1 : Fin 2) * 128 + 1 * (k 1).val; omega
  · show win1_1.index t (1 : Fin 2) * 128 + 1 * q.val = win1_2.index t (1 : Fin 2) * 128 + 1 * q.val; omega

/-- An index of the result array is in point t's block iff each coordinate is in the block's range on its axis. -/
theorem mem_rows1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten row blocks tile the 50000 rows: row r is in the block of point r / 5000. -/
theorem rows_cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨e0, e1, e2, e3, e4, e5⟩ := rows_at1 ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_rows1]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 128 ≤ (i 1).val ∧ (i 1).val < win1_2.index ⟨(i 0).val / 5000, hlt⟩ (1 : Fin 2) * 128 + 128; omega

/-- Region 1's result array: the operand plus the bias row, then the maximum with zero, in the reference's spelling. -/
theorem bias1 (c : Dev nD) (b : Vec Ideal Cert.ReferenceIdeal.S128 .f32)
    (hb : ∀ j : S1x128.Idx, V c main_v44 j = b (ValueIdx.ix1 ⟨(j 1).val, (j 1).isLt⟩)) :
    (dat1 (F := Ideal) V c).arrAt 2 cfg1.N
      = maximumf (F := Ideal)
          (addf (F := Ideal) (V c main_v43)
            (broadcastInDim Cert.ReferenceIdeal.S50000x128 ![0, 1] Cert.ReferenceIdeal.Gen.bcast_S1x128_S50000x128_0_1
              (broadcastInDim Cert.ReferenceIdeal.S1x128 ![1] Cert.ReferenceIdeal.Gen.bcast_S128_S1x128_1 b)))
          (broadcastInDim Cert.ReferenceIdeal.S50000x128 ![] Cert.ReferenceIdeal.Gen.bcast_S_S50000x128
            (constant (F := Ideal) Cert.ReferenceIdeal.S_ .f32 0x00000000#32)) :=
  (dat1 (F := Ideal) V c).arrAt_eq_of_cover 2 _ (fun t _ => relu_bias_flushed V c b hb t) rows_cover1

/-! ## The second bias region: 64 columns, no maximum -/

open Idealize.ShloMosaic.ValueIdx in
/-- The reference's term at an index: the operand's entry plus the bias entry of its column. -/
theorem bias_apply (x : Vec Ideal S50000x64 .f32) (b : Vec Ideal Cert.ReferenceIdeal.S64 .f32) (i : S50000x64.Idx) :
    (addf (F := Ideal) (φ := .f32) x
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b))) i
      = x i + b (ix1 ⟨(i 1).val, (i 1).isLt⟩) := by
  rw [addf_apply]
  rw [broadcastInDim_apply _ Cert.ReferenceIdeal.Gen.bcast_S1x64_S50000x64_0_1 _ i (ix2 ⟨0, Nat.one_pos⟩ ⟨(i 1).val, (i 1).isLt⟩) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  rw [broadcastInDim_apply _ Cert.ReferenceIdeal.Gen.bcast_S64_S1x64_1 b _ (ix1 ⟨(i 1).val, (i 1).isLt⟩) (fun a => match a with
    | ⟨0, _⟩ => by show (i 1).val = if (64 : Nat) = 1 then 0 else (i 1).val; rw [if_neg (by decide)])]

open Idealize.ShloMosaic.ValueIdx in
/-- The body's block at (p, q): the operand block's entry plus the bias row's entry of column q. -/
theorem bias_block_apply (x : Vec Ideal S5000x64 .f32) (brow : Vec Ideal S1x64 .f32) (p : Fin 5000) (q : Fin 64) :
    k3_pay1 (F := Ideal) x brow (ix2 p q) = x (ix2 p q) + brow (ix2 ⟨0, Nat.one_pos⟩ q) := by
  unfold k3_pay1
  rw [addf_apply, shapeCast_self, shapeCast_self]
  rw [broadcastTo_apply brow broadcasts_S1x64_S5000x64 (ix2 p q) (ix2 ⟨0, Nat.one_pos⟩ q) (fun a => match a with
    | ⟨0, _⟩ => by show 0 = if (1 : Nat) = 1 then 0 else _; rw [if_pos rfl]
    | ⟨1, _⟩ => by show q.val = if (64 : Nat) = 1 then 0 else _; rw [if_neg (by decide)]; rfl)]

open Idealize.ShloMosaic.ValueIdx in
/-- A block read off the operand array A through e0 and a bias row read off the row array R through e1 give, under the body,
    the block of the reference's term that e2 names, when e0 and e2 name the same entries and e1 keeps e2's column. -/
theorem bias_block_read (A : Vec Ideal S50000x64 .f32) (R : Vec Ideal S1x64 .f32) (b : Vec Ideal Cert.ReferenceIdeal.S64 .f32)
    (hb : ∀ j : S1x64.Idx, R j = b (ix1 ⟨(j 1).val, (j 1).isLt⟩))
    (x : Vec Ideal S5000x64 .f32) (brow : Vec Ideal S1x64 .f32)
    (e0 e2 : S5000x64.Idx → S50000x64.Idx) (e1 : S1x64.Idx → S1x64.Idx)
    (hx : ∀ k, x k = A (e0 k)) (hr : ∀ k, brow k = R (e1 k))
    (h02 : ∀ k, e0 k = e2 k)
    (h1 : ∀ (p : Fin 5000) (q : Fin 64), ((e1 (ix2 ⟨0, Nat.one_pos⟩ q)) 1).val = ((e2 (ix2 p q)) 1).val) :
    k3_pay1 (F := Ideal) x brow = fun k => (addf (F := Ideal) (φ := .f32) A
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b))) (e2 k) := by
  funext j
  obtain ⟨p, q, rfl⟩ : ∃ (p : Fin 5000) (q : Fin 64), j = ix2 p q := ⟨j 0, j 1, eq_ix2 j⟩
  rw [bias_block_apply, bias_apply, hx, hr, hb, h02]
  have e : (⟨((e1 (ix2 ⟨0, Nat.one_pos⟩ q)) 1).val, ((e1 (ix2 ⟨0, Nat.one_pos⟩ q)) 1).isLt⟩ : Fin 64) = ⟨((e2 (ix2 p q)) 1).val, ((e2 (ix2 p q)) 1).isLt⟩ := Fin.ext (h1 p q)
  rw [e]

/-- The windows' block indices over the grid: the operand's and the result's block at point t is row block t, column block 0;
    the bias row's block is always block (0, 0). -/
theorem rows_at3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

open Idealize.ShloMosaic.ValueIdx in
/-- What point t writes back is rows 5000·t … 5000·t + 4999 of the operand plus the bias row. -/
theorem bias_flushed (c : Dev nD) (b : Vec Ideal Cert.ReferenceIdeal.S64 .f32)
    (hb : ∀ j : S1x64.Idx, V c main_v90 j = b (ix1 ⟨(j 1).val, (j 1).isLt⟩)) (t : Fin cfg3.N) :
    (dat3 (F := Ideal) V c).flushed 2 t = ((cfg3.win 2).blk t).view.read (Elt Ideal)
      (addf (F := Ideal) (φ := .f32) (V c main_v89)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b))) := by
  show (cfg3.win 2).cut (grid3.coords t) ((dat3 (F := Ideal) V c).after 2 t) = _
  rw [after3_2]
  unfold out3_2
  rw [View.canon_unit_zero bias_zero_offsets]
  simp only [View.ld_unit_zero (S := S5000x64) bias_zero_offsets, View.ld_unit_zero (S := S1x64) bias_zero_offsets]
  obtain ⟨e0, e1, e2, e3, e4, e5⟩ := rows_at3 t
  refine bias_block_read (V c main_v89) (V c main_v90) b hb (iblk3 V c 0 t) (iblk3 V c 1 t)
    ((cfg3.win 0).blk t).view.emb ((cfg3.win 2).blk t).view.emb ((cfg3.win 1).blk t).view.emb
    (fun _ => rfl) (fun _ => rfl) (fun k => ?_) (fun p q => ?_)
  · funext a; apply Fin.ext
    match a with
    | ⟨0, _⟩ => show win3_0.index t (0 : Fin 2) * 5000 + 1 * (k 0).val = win3_2.index t (0 : Fin 2) * 5000 + 1 * (k 0).val; omega
    | ⟨1, _⟩ => show win3_0.index t (1 : Fin 2) * 64 + 1 * (k 1).val = win3_2.index t (1 : Fin 2) * 64 + 1 * (k 1).val; omega
  · show win3_1.index t (1 : Fin 2) * 64 + 1 * q.val = win3_2.index t (1 : Fin 2) * 64 + 1 * q.val; omega

/-- An index of the result array is in point t's block iff each coordinate is in the block's range on its axis. -/
theorem mem_rows3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v91).slice (win3_2.rect t)).set ↔ _
  rw [View.set_slice_whole, Rect.mem_set_unit]
  exact Iff.rfl

/-- The ten row blocks tile the 50000 rows: row r is in the block of point r / 5000. -/
theorem rows_cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  have hlt : (i 0).val / 5000 < grid3.N := by rw [hN]; omega
  obtain ⟨e0, e1, e2, e3, e4, e5⟩ := rows_at3 ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_rows3]
  intro a
  match a with
  | ⟨0, _⟩ => show win3_2.index ⟨(i 0).val / 5000, hlt⟩ (0 : Fin 2) * 5000 ≤ (i 0).val ∧ (i 0).val < win3_2.index ⟨(i 0).val / 5000, hlt⟩ (0 : Fin 2) * 5000 + 5000; omega
  | ⟨1, _⟩ => show win3_2.index ⟨(i 0).val / 5000, hlt⟩ (1 : Fin 2) * 64 ≤ (i 1).val ∧ (i 1).val < win3_2.index ⟨(i 0).val / 5000, hlt⟩ (1 : Fin 2) * 64 + 64; omega

/-- Region 3's result array: the operand plus the bias row, in the reference's spelling. -/
theorem bias3 (c : Dev nD) (b : Vec Ideal Cert.ReferenceIdeal.S64 .f32)
    (hb : ∀ j : S1x64.Idx, V c main_v90 j = b (ValueIdx.ix1 ⟨(j 1).val, (j 1).isLt⟩)) :
    (dat3 (F := Ideal) V c).arrAt 2 cfg3.N
      = addf (F := Ideal) (φ := .f32) (V c main_v89)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b)) :=
  (dat3 (F := Ideal) V c).arrAt_eq_of_cover 2 _ (fun t _ => bias_flushed V c b hb t) rows_cover3

end Cert.KernelIdeal.RegionValue

end
-- ==== Proof.HostGlue.lean ====
/- The host stretches between the four kernel regions, read as values. Both programs run the SAME graph
   aggregation around their dense products: from the edge list, the source and destination of every edge and of
   every self loop, the in-degree of every node, its inverse square root where positive, the per-edge weight, the
   gathered rows scaled by that weight and summed into their destinations; and at the end the sum of node rows by
   graph. So each stretch's result is the reference's own stage of the same name applied to the same inputs: no
   operation of a stretch is opened, the two composed terms are one. -/
import proofs.«156816_j44238163149209_1_alg».proof.Proof.Gen.KernelIdeal.Frame
import proofs.«156816_j44238163149209_1_alg».proof.Proof.RefRead
import Idealize.ShloMosaic.Lib.StableHlo.Run
import Idealize.ShloMosaic.Lib.ValueIdx
import Idealize.ShloMosaic.Lib.ValueLayout

set_option maxRecDepth 16384

noncomputable section

namespace Cert.KernelIdeal.HostValue

open Idealize.ShloMosaic Idealize.ShloMosaic.TcCoe Idealize.ShloMosaic.StableHlo
open Idealize.SL Idealize.SL.Sem
open Cert.KernelIdeal Cert.KernelIdeal.Gen

/-- Rewrites what is left of a fold of host operations read at a buffer: each operation's result at its own buffer
    is its function of its operands, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F]
variable (m : (ℓ : Loc nD τ sig) → Buf (Elt F) ℓ) (ρ : Dev nD → PrngReg)

/-! ## Between the first product and the first bias: the aggregation over 128 columns -/

set_option maxHeartbeats 2000000 in
/-- The aggregated rows the first bias region finds: the reference's scatter stage of the first layer, of the same
    product and the same edge list. -/
theorem agg1 (c : Dev nD) (x0 : (⟨Cert.ReferenceIdeal.S50000x128, .f32⟩ : BufTy).Contents (Elt F))
    (x1 : (⟨Cert.ReferenceIdeal.S2x600000, .i32⟩ : BufTy).Contents (Elt F))
    (x3 : (⟨Cert.ReferenceIdeal.S128x128, .f32⟩ : BufTy).Contents (Elt F))
    (h0 : W1 m ρ c (Proc.devRef .tc main_v0) = Cert.ReferenceIdeal.ReadP.val_main_v0 (F := F) x0 x3)
    (h1 : W1 m ρ c (Proc.devRef .tc main_arg1) = x1) :
    W4 m ρ c (Proc.devRef .tc main_v43) = Cert.ReferenceIdeal.ReadP.val_main_v43 (F := F) x0 x1 x3 := by
  show StableHlo.after hostOps1_2 (StableHlo.after hostOps1_1 (StableHlo.after hostOps1 (W1 m ρ c))) (Proc.devRef .tc main_v43) = _
  generalize W1 m ρ c = Wv at h0 h1 ⊢
  simp only [hostOps1, hostOps1_1, hostOps1_2]
  after_results_simp <;> results_rw
  rw [h0, h1]
  rfl

/-- The bias row the first bias region finds: the bias vector laid out as one row. -/
theorem brow1 (c : Dev nD) (x4 : (⟨Cert.ReferenceIdeal.S128, .f32⟩ : BufTy).Contents (Elt F))
    (h4 : W1 m ρ c (Proc.devRef .tc main_arg4) = x4) (j : S1x128.Idx) :
    W4 m ρ c (Proc.devRef .tc main_v44) j = x4 (ValueIdx.ix1 ⟨(j 1).val, (j 1).isLt⟩) := by
  have e : W4 m ρ c (Proc.devRef .tc main_v44) = shapeCast S1x128 (W1 m ρ c (Proc.devRef .tc main_arg4)) shapeCasts_S128_S1x128 := by
    show StableHlo.after hostOps1_2 (StableHlo.after hostOps1_1 (StableHlo.after hostOps1 (W1 m ρ c))) (Proc.devRef .tc main_v44) = _
    generalize W1 m ρ c = Wv
    simp only [hostOps1, hostOps1_1, hostOps1_2]
    after_results_simp <;> results_rw
    rfl
  rw [e, h4, ValueIdx.eq_ix2 j]
  exact ValueIdx.shapeCast_a_1a_apply x4 _ (j 0) (j 1)

/-- The first stretch writes no argument: the edge list, the graph ids and the second layer's weights and bias pass. -/
theorem keeps1 (c : Dev nD) :
    W4 m ρ c (Proc.devRef .tc main_arg1) = W1 m ρ c (Proc.devRef .tc main_arg1)
    ∧ W4 m ρ c (Proc.devRef .tc main_arg2) = W1 m ρ c (Proc.devRef .tc main_arg2)
    ∧ W4 m ρ c (Proc.devRef .tc main_arg5) = W1 m ρ c (Proc.devRef .tc main_arg5)
    ∧ W4 m ρ c (Proc.devRef .tc main_arg6) = W1 m ρ c (Proc.devRef .tc main_arg6) := by
  refine ⟨?_, ?_, ?_, ?_⟩ <;>
  · show StableHlo.after hostOps1_2 (StableHlo.after hostOps1_1 (StableHlo.after hostOps1 (W1 m ρ c))) _ = _
    generalize W1 m ρ c = Wv
    simp only [hostOps1, hostOps1_1, hostOps1_2]
    after_results_simp

/-! ## Between the second product and the second bias: the aggregation over 64 columns -/

set_option maxHeartbeats 2000000 in
/-- The aggregated rows the second bias region finds: the reference's scatter stage of the second layer. -/
theorem agg2 (c : Dev nD) (x0 : (⟨Cert.ReferenceIdeal.S50000x128, .f32⟩ : BufTy).Contents (Elt F))
    (x1 : (⟨Cert.ReferenceIdeal.S2x600000, .i32⟩ : BufTy).Contents (Elt F))
    (x3 : (⟨Cert.ReferenceIdeal.S128x128, .f32⟩ : BufTy).Contents (Elt F))
    (x4 : (⟨Cert.ReferenceIdeal.S128, .f32⟩ : BufTy).Contents (Elt F))
    (x5 : (⟨Cert.ReferenceIdeal.S128x64, .f32⟩ : BufTy).Contents (Elt F))
    (h0 : W6 m ρ c (Proc.devRef .tc main_v46) = Cert.ReferenceIdeal.ReadP.val_main_v48 (F := F) x0 x1 x3 x4 x5)
    (h1 : W6 m ρ c (Proc.devRef .tc main_arg1) = x1) :
    W9 m ρ c (Proc.devRef .tc main_v89) = Cert.ReferenceIdeal.ReadP.val_main_v91 (F := F) x0 x1 x3 x4 x5 := by
  show StableHlo.after hostOps3_2 (StableHlo.after hostOps3_1 (StableHlo.after hostOps3 (W6 m ρ c))) (Proc.devRef .tc main_v89) = _
  generalize W6 m ρ c = Wv at h0 h1 ⊢
  simp only [hostOps3, hostOps3_1, hostOps3_2]
  after_results_simp <;> results_rw
  rw [h0, h1]
  rfl

/-- The bias row the second bias region finds: the bias vector laid out as one row. -/
theorem brow2 (c : Dev nD) (x6 : (⟨Cert.ReferenceIdeal.S64, .f32⟩ : BufTy).Contents (Elt F))
    (h6 : W6 m ρ c (Proc.devRef .tc main_arg6) = x6) (j : S1x64.Idx) :
    W9 m ρ c (Proc.devRef .tc main_v90) j = x6 (ValueIdx.ix1 ⟨(j 1).val, (j 1).isLt⟩) := by
  have e : W9 m ρ c (Proc.devRef .tc main_v90) = shapeCast S1x64 (W6 m ρ c (Proc.devRef .tc main_arg6)) shapeCasts_S64_S1x64 := by
    show StableHlo.after hostOps3_2 (StableHlo.after hostOps3_1 (StableHlo.after hostOps3 (W6 m ρ c))) (Proc.devRef .tc main_v90) = _
    generalize W6 m ρ c = Wv
    simp only [hostOps3, hostOps3_1, hostOps3_2]
    after_results_simp <;> results_rw
    rfl
  rw [e, h6, ValueIdx.eq_ix2 j]
  exact ValueIdx.shapeCast_a_1a_apply x6 _ (j 0) (j 1)

/-- The second stretch does not write the graph ids. -/
theorem keeps2 (c : Dev nD) :
    W9 m ρ c (Proc.devRef .tc main_arg2) = W6 m ρ c (Proc.devRef .tc main_arg2) := by
  show StableHlo.after hostOps3_2 (StableHlo.after hostOps3_1 (StableHlo.after hostOps3 (W6 m ρ c))) _ = _
  generalize W6 m ρ c = Wv
  simp only [hostOps3, hostOps3_1, hostOps3_2]
  after_results_simp

/-! ## After the second bias: the sum of node rows by graph -/

/-- The program's result: the reference's pooling stage of the same rows and the same graph ids. -/
theorem pool (c : Dev nD) (x0 : (⟨Cert.ReferenceIdeal.S50000x128, .f32⟩ : BufTy).Contents (Elt F))
    (x1 : (⟨Cert.ReferenceIdeal.S2x600000, .i32⟩ : BufTy).Contents (Elt F))
    (x2 : (⟨Cert.ReferenceIdeal.S50000, .i32⟩ : BufTy).Contents (Elt F))
    (x3 : (⟨Cert.ReferenceIdeal.S128x128, .f32⟩ : BufTy).Contents (Elt F))
    (x4 : (⟨Cert.ReferenceIdeal.S128, .f32⟩ : BufTy).Contents (Elt F))
    (x5 : (⟨Cert.ReferenceIdeal.S128x64, .f32⟩ : BufTy).Contents (Elt F))
    (x6 : (⟨Cert.ReferenceIdeal.S64, .f32⟩ : BufTy).Contents (Elt F))
    (h0 : W10 m ρ c (Proc.devRef .tc main_v91) = Cert.ReferenceIdeal.ReadP.val_main_v94 (F := F) x0 x1 x3 x4 x5 x6)
    (h2 : W10 m ρ c (Proc.devRef .tc main_arg2) = x2) :
    W11 m ρ c (Proc.devRef .tc main_v94) = Cert.ReferenceIdeal.ReadP.val_main_v97 (F := F) x0 x1 x2 x3 x4 x5 x6 := by
  show StableHlo.after hostOps4 (W10 m ρ c) (Proc.devRef .tc main_v94) = _
  generalize W10 m ρ c = Wv at h0 h2 ⊢
  simp only [hostOps4]
  after_results_simp <;> results_rw
  rw [h0, h2]
  rfl

end Cert.KernelIdeal.HostValue

end
-- ==== Proof.Bridge.lean ====
/- The kernel program's result is the reference's. Walking the program's boundaries in order, each buffer that a
   later stage reads holds the reference's stage of the same name at the same arguments: the first product (a
   kernel region against the host's product), the first aggregation (shared host operations), the first bias with
   its maximum with zero (a kernel region against the host's add and maximum), the second product, the second
   aggregation, the second bias, and the sum by graph. No law of the extended reals is needed beyond reading each
   region's blocks as one whole-array function: the two programs compute the same sums in the same grouping. -/
import proofs.«156816_j44238163149209_1_alg».proof.Defs
import proofs.«156816_j44238163149209_1_alg».proof.Proof.Gen.KernelIdeal.Frame
import proofs.«156816_j44238163149209_1_alg».proof.Proof.RefRead
import proofs.«156816_j44238163149209_1_alg».proof.Proof.KRun
import proofs.«156816_j44238163149209_1_alg».proof.Proof.Matmul
import proofs.«156816_j44238163149209_1_alg».proof.Proof.Bias
import proofs.«156816_j44238163149209_1_alg».proof.Proof.HostGlue

set_option maxRecDepth 16384

noncomputable section

namespace Cert.KernelIdeal.Bridge

open Idealize.ShloMosaic Idealize.ShloMosaic.TcCoe
open Idealize.SL Idealize.SL.Sem
open Cert.KernelIdeal Cert.KernelIdeal.Gen Cert.KernelIdeal.RegionValue Cert.KernelIdeal.HostValue
open Cert.ReferenceIdeal.ReadP (val_main_v0 val_main_v43 val_main_v47 val_main_v48 val_main_v91 val_main_v94 val_main_v97)

variable (m : (ℓ : Loc nD τ sig) → Buf (Elt Ideal) ℓ) (ρ : Dev nD → PrngReg)

/-- An argument's buffer at the launch boundary holds the launch memory. -/
theorem at_launch (c : Dev nD) (b : Ref sig .tc) : W0 m ρ c (Proc.devRef .tc b) = m ((c : Thread nD τ).loc b) := rfl

/-- After the first product region: the product of the features and the first weights. -/
theorem first_product (c : Dev nD) :
    W1 m ρ c (Proc.devRef .tc main_v0)
      = val_main_v0 (F := Ideal) (m ((c : Thread nD τ).loc main_arg0)) (m ((c : Thread nD τ).loc main_arg3)) :=
  (W1_arr m ρ c 2).trans (mm0 (V0 m ρ) c)

/-- The first product region writes no argument. -/
theorem kept_W1 (c : Dev nD) (b : Ref sig .tc) (hb : ∀ w, Pipeline.arrRef spec0 w ≠ b) :
    W1 m ρ c (Proc.devRef .tc b) = m ((c : Thread nD τ).loc b) := W1_of_ne m ρ c b hb

/-- At the first bias region's entry: the aggregated rows. -/
theorem first_aggregation (c : Dev nD) :
    W4 m ρ c (Proc.devRef .tc main_v43)
      = val_main_v43 (F := Ideal) (m ((c : Thread nD τ).loc main_arg0)) (m ((c : Thread nD τ).loc main_arg1))
          (m ((c : Thread nD τ).loc main_arg3)) :=
  agg1 m ρ c _ _ _ (first_product m ρ c) (kept_W1 m ρ c main_arg1 (by decide))

/-- After the first bias region: the first layer's output, the reference's maximum-with-zero stage. -/
theorem first_layer (c : Dev nD) :
    W5 m ρ c (Proc.devRef .tc main_v45)
      = val_main_v47 (F := Ideal) (m ((c : Thread nD τ).loc main_arg0)) (m ((c : Thread nD τ).loc main_arg1))
          (m ((c : Thread nD τ).loc main_arg3)) (m ((c : Thread nD τ).loc main_arg4)) := by
  refine (W5_arr m ρ c 2).trans ((bias1 (V4 m ρ) c (m ((c : Thread nD τ).loc main_arg4))
    (fun j => brow1 m ρ c _ (kept_W1 m ρ c main_arg4 (by decide)) j)).trans ?_)
  rw [show V4 m ρ c main_v43 = _ from first_aggregation m ρ c]
  rfl

/-- After the second product region: the product of the first layer's output and the second weights. -/
theorem second_product (c : Dev nD) :
    W6 m ρ c (Proc.devRef .tc main_v46)
      = val_main_v48 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) := by
  refine (W6_arr m ρ c 2).trans ((mm2 (V5 m ρ) c).trans ?_)
  rw [show V5 m ρ c main_v45 = _ from first_layer m ρ c,
    show V5 m ρ c main_arg5 = m ((c : Thread nD τ).loc main_arg5) from
      (W5_of_ne m ρ c main_arg5 (by decide)).trans (((keeps1 m ρ c).2.2.1).trans (kept_W1 m ρ c main_arg5 (by decide)))]
  rfl

/-- An argument the first two regions and the first stretch do not write, at the second stretch's entry. -/
theorem kept_W6 (c : Dev nD) (b : Ref sig .tc) (h2 : ∀ w, Pipeline.arrRef spec2 w ≠ b) (h1 : ∀ w, Pipeline.arrRef spec1 w ≠ b)
    (hk : W4 m ρ c (Proc.devRef .tc b) = W1 m ρ c (Proc.devRef .tc b)) (h0 : ∀ w, Pipeline.arrRef spec0 w ≠ b) :
    W6 m ρ c (Proc.devRef .tc b) = m ((c : Thread nD τ).loc b) :=
  (W6_of_ne m ρ c b h2).trans ((W5_of_ne m ρ c b h1).trans (hk.trans (kept_W1 m ρ c b h0)))

/-- At the second bias region's entry: the aggregated rows of the second layer. -/
theorem second_aggregation (c : Dev nD) :
    W9 m ρ c (Proc.devRef .tc main_v89)
      = val_main_v91 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) :=
  agg2 m ρ c _ _ _ _ _ (second_product m ρ c)
    (kept_W6 m ρ c main_arg1 (by decide) (by decide) (keeps1 m ρ c).1 (by decide))

/-- After the second bias region: the second layer's output. -/
theorem second_layer (c : Dev nD) :
    W10 m ρ c (Proc.devRef .tc main_v91)
      = val_main_v94 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  refine (W10_arr m ρ c 2).trans ((bias3 (V9 m ρ) c (m ((c : Thread nD τ).loc main_arg6))
    (fun j => brow2 m ρ c _ (kept_W6 m ρ c main_arg6 (by decide) (by decide) (keeps1 m ρ c).2.2.2 (by decide)) j)).trans ?_)
  rw [show V9 m ρ c main_v89 = _ from second_aggregation m ρ c]
  rfl

/-- THE RESULT: the program's result buffer at the last boundary holds the reference's result stage of the
    arguments. -/
theorem result_eq (c : Dev nD) :
    W11 m ρ c (Proc.devRef .tc main_v94)
      = val_main_v97 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  pool m ρ c _ _ _ _ _ _ _ (second_layer m ρ c)
    ((W10_of_ne m ρ c main_arg2 (by decide)).trans ((keeps2 m ρ c).trans
      (kept_W6 m ρ c main_arg2 (by decide) (by decide) (keeps1 m ρ c).2.1 (by decide))))

end Cert.KernelIdeal.Bridge

end
-- ==== Proof.lean ====
/- The certificate of a two-layer graph convolution with a sum over graphs: the kernel program computes each
   layer's dense product and its bias (with the maximum with zero after the first) in kernel regions over blocks
   of 5000 node rows and leaves the graph aggregation to host operations; the reference computes all of it by
   host operations. Over the extended reals the two are one function of the arguments.

   The three frames: the two kernel programs' are their generated frame certificates; the reference's is its run
   with the result dropped. The idealization rewrote nothing, so there is nothing to preserve. The value claim:
   the kernel program's run names its result buffer at the last boundary's contents (`Run.run`), those contents
   are the reference's result stage of the arguments (`Bridge.result_eq`: each region's blocks tile its array, so
   a region's result is one whole-array function, a product or a row-wise sum with the bias; the host stretches
   are the reference's own operations), and the reference's run ends at that same stage of arguments that agree. -/
import proofs.«156816_j44238163149209_1_alg».proof.Defs
import proofs.«156816_j44238163149209_1_alg».proof.Proof.Gen.Kernel
import proofs.«156816_j44238163149209_1_alg».proof.Proof.Gen.Kernel.Skeleton
import proofs.«156816_j44238163149209_1_alg».proof.Proof.Gen.Kernel.Launch
import proofs.«156816_j44238163149209_1_alg».proof.Proof.Gen.Kernel.Points
import proofs.«156816_j44238163149209_1_alg».proof.Proof.Gen.Kernel.Frame
import proofs.«156816_j44238163149209_1_alg».proof.Proof.Gen.KernelIdeal
import proofs.«156816_j44238163149209_1_alg».proof.Proof.Gen.KernelIdeal.Skeleton
import proofs.«156816_j44238163149209_1_alg».proof.Proof.Gen.KernelIdeal.Launch
import proofs.«156816_j44238163149209_1_alg».proof.Proof.Gen.KernelIdeal.Points
import proofs.«156816_j44238163149209_1_alg».proof.Proof.Gen.KernelIdeal.Frame
import proofs.«156816_j44238163149209_1_alg».proof.Proof.Gen.ReferenceIdeal
import proofs.«156816_j44238163149209_1_alg».proof.Proof.Gen.Pre_finite_inputs
import proofs.«156816_j44238163149209_1_alg».proof.Proof.RefRun
import proofs.«156816_j44238163149209_1_alg».proof.Proof.RefRead
import proofs.«156816_j44238163149209_1_alg».proof.Proof.KRun
import proofs.«156816_j44238163149209_1_alg».proof.Proof.Bridge
import Idealize.ShloMosaic.Adequacy
import Idealize.ShloMosaic.Init

noncomputable section

namespace Cert.Proof

open Idealize.ShloMosaic Idealize.SL.Sem Cert.Kernel

/-- The reference's frame: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- Both idealized programs, from memories that agree on the arguments, end with the reference's result stage of
    those arguments in their result buffers. -/
theorem algebraic : Cert.algebraic_KernelIdeal_ReferenceIdeal := by
  intro m ρ m' ρ' _ hagree
  refine ⟨fun c => Cert.ReferenceIdeal.ReadP.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v97_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
